-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x128 : Shape := ⟨3, ![512, 1024, 128]⟩
abbrev S1024x64x8x128 : Shape := ⟨4, ![1024, 64, 8, 128]⟩
abbrev S8x64x1024x1 : Shape := ⟨4, ![8, 64, 1024, 1]⟩
abbrev S128x128 : Shape := ⟨2, ![128, 128]⟩
abbrev S128 : Shape := ⟨1, ![128]⟩
abbrev S_ : Shape := ⟨0, ![]⟩

class Facts : Prop where
  bcast_S_S512x1024x128 : S_.BroadcastsInDim S512x1024x128 (![] : Fin 0 → Fin S512x1024x128.rank)
  reducesTo_S512x1024x128_S_d0_1_2 : S512x1024x128.ReducesTo [0, 1, 2] S_
  h_S_ : 0 < S_.numel
  bcast_S_S1024x64x8x128 : S_.BroadcastsInDim S1024x64x8x128 (![] : Fin 0 → Fin S1024x64x8x128.rank)
  reducesTo_S1024x64x8x128_S_d0_1_2_3 : S1024x64x8x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S512x1024x128 .f32) (main_arg1 : FVec F S1024x64x8x128 .f32) (main_arg2 : IVec S8x64x1024x1 32) (main_arg3 : FVec F S128x128 .f32) (main_arg4 : FVec F S128 .f32) : IVec S_ 1 :=
  let main_v0 : FVec F S512x1024x128 .f32 := Host.absf main_arg0
  let main_cst : FVec F S_ .f32 := constant S_ .f32 0x7F800000#32
  let main_v1 : FVec F S512x1024x128 .f32 := broadcastInDim S512x1024x128 ![] bcast_S_S512x1024x128 main_cst
  let main_v2 : IVec S512x1024x128 1 := cmpf .olt main_v0 main_v1
  let main_c : IVec S_ 1 := constantI S_ 1 1#1
  let main_v3 : IVec S_ 1 := (fun x v => Host.reduce IntOp.andi x v reducesTo_S512x1024x128_S_d0_1_2 h_S_) main_v2 main_c
  let main_v4 : FVec F S1024x64x8x128 .f32 := Host.absf main_arg1
  let main_cst_0 : FVec F S_ .f32 := constant S_ .f32 0x7F800000#32
  let main_v5 : FVec F S1024x64x8x128 .f32 := broadcastInDim S1024x64x8x128 ![] bcast_S_S1024x64x8x128 main_cst_0
  let main_v6 : IVec S1024x64x8x128 1 := cmpf .olt main_v4 main_v5
  let main_c_1 : IVec S_ 1 := constantI S_ 1 1#1
  let main_v7 : IVec S_ 1 := (fun x v => Host.reduce IntOp.andi x v reducesTo_S1024x64x8x128_S_d0_1_2_3 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S512x1024x128 : Shape := ⟨3, ![512, 1024, 128]⟩
abbrev S1024x64x8x128 : Shape := ⟨4, ![1024, 64, 8, 128]⟩
abbrev S8x64x1024x1 : Shape := ⟨4, ![8, 64, 1024, 1]⟩
abbrev S128x128 : Shape := ⟨2, ![128, 128]⟩
abbrev S128 : Shape := ⟨1, ![128]⟩
abbrev S8x64x1024x128 : Shape := ⟨4, ![8, 64, 1024, 128]⟩
abbrev S128x8x8x128 : Shape := ⟨4, ![128, 8, 8, 128]⟩
abbrev S8x8x128x1 : Shape := ⟨4, ![8, 8, 128, 1]⟩
abbrev S8x8x128x128 : Shape := ⟨4, ![8, 8, 128, 128]⟩
abbrev S8x128x1 : Shape := ⟨3, ![8, 128, 1]⟩
abbrev S1x8x128x1 : Shape := ⟨4, ![1, 8, 128, 1]⟩
abbrev S8192x128 : Shape := ⟨2, ![8192, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S512x1024x128, .f32⟩
  | .hbm, ⟨1, _⟩ => ⟨S1024x64x8x128, .f32⟩
  | .hbm, ⟨2, _⟩ => ⟨S8x64x1024x1, .i32⟩
  | .hbm, ⟨3, _⟩ => ⟨S128x128, .f32⟩
  | .hbm, ⟨4, _⟩ => ⟨S128, .f32⟩
  | .hbm, ⟨5, _⟩ => ⟨S8x64x1024x128, .f32⟩
  | .hbm, ⟨6, _⟩ => ⟨S8x64x1024x128, .f32⟩
  | .hbm, ⟨7, _⟩ => ⟨S512x1024x128, .f32⟩
  | .local _ .vmem, ⟨0, _⟩ => ⟨S128x8x8x128, .f32⟩
  | .local _ .vmem, ⟨1, _⟩ => ⟨S128x8x8x128, .f32⟩
  | .local _ .vmem, ⟨2, _⟩ => ⟨S8x8x128x1, .i32⟩
  | .local _ .vmem, ⟨3, _⟩ => ⟨S8x8x128x1, .i32⟩
  | .local _ .vmem, ⟨4, _⟩ => ⟨S8x8x128x128, .f32⟩
  | .local _ .vmem, ⟨5, _⟩ => ⟨S8x8x128x128, .f32⟩
  | .local _ .vmem, ⟨6, _⟩ => ⟨S128x128, .f32⟩
  | .local _ .vmem, ⟨7, _⟩ => ⟨S128, .f32⟩
  | .local _ .vmem, ⟨8, _⟩ => ⟨S8x8x128x128, .f32⟩
  | .local _ .vmem, ⟨9, _⟩ => ⟨S8x8x128x128, .f32⟩
  | _, _ => ⟨S512x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S128x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S512x1024x128_S8x64x1024x128 : S512x1024x128.ShapeCasts S8x64x1024x128
  inb_S128x8x8x128_S128x8x8x128_0_0_0_0 : ∀ a, (![0, 0, 0, 0] : Fin 4 → Nat) a + S128x8x8x128.size a ≤ S128x8x8x128.size a
  h_S128x8x8x128 : 0 < S128x8x8x128.numel
  transposes_S128x8x8x128_p2_1_0_3_S8x8x128x128 : S128x8x8x128.Transposes [2, 1, 0, 3] S8x8x128x128
  inb_S8x8x128x1_S8x8x128x1_0_0_0_0 : ∀ a, (![0, 0, 0, 0] : Fin 4 → Nat) a + S8x8x128x1.size a ≤ S8x8x128x1.size a
  h_S8x8x128x1 : 0 < S8x8x128x1.numel
  broadcasts_S8x8x128x1_S8x8x128x128 : S8x8x128x1.Broadcasts S8x8x128x128
  reduces_S8x8x128x1_S8x128x1 : S8x8x128x1.Reduces [0] S8x128x1
  shapeCasts_S8x128x1_S1x8x128x1 : S8x128x1.ShapeCasts S1x8x128x1
  broadcasts_S1x8x128x1_S8x8x128x128 : S1x8x128x1.Broadcasts S8x8x128x128
  shapeCasts_S8x8x128x128_S8192x128 : S8x8x128x128.ShapeCasts S8192x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S8x8x128x128 : S8192x128.ShapeCasts S8x8x128x128
  inb_S8x8x128x128_S8x8x128x128_0_0_0_0 : ∀ a, (![0, 0, 0, 0] : Fin 4 → Nat) a + S8x8x128x128.size a ≤ S8x8x128x128.size a
  h_S8x8x128x128 : 0 < S8x8x128x128.numel
  shapeCasts_S8x8x128x128_S8x8x128x128 : S8x8x128x128.ShapeCasts S8x8x128x128
  shapeCasts_S8x64x1024x128_S512x1024x128 : S8x64x1024x128.ShapeCasts S512x1024x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x8x128.size a ≤ S1024x64x8x128.size a
  hwx0_0 : ∀ i : grid0.Coords, EltTy.bits .f32 = 32 ∨ (Rect.block (s := S1024x64x8x128) S128x8x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x128x1.size a ≤ S8x64x1024x1.size a
  hwx0_1 : ∀ i : grid0.Coords, EltTy.bits .i32 = 32 ∨ (Rect.block (s := S8x64x1024x1) S8x8x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8x128x128.size a ≤ S8x64x1024x128.size a
  hwx0_2 : ∀ i : grid0.Coords, EltTy.bits .f32 = 32 ∨ (Rect.block (s := S8x64x1024x128) S8x8x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x8x128x128.size a ≤ S8x64x1024x128.size a
  hwx0_5 : ∀ i : grid0.Coords, EltTy.bits .f32 = 32 ∨ (Rect.block (s := S8x64x1024x128) S8x8x128x128.size (cc0_transform_5 i) (hinb0_5 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg1) S128x8x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x8x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x8x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x1024x128 : Shape := ⟨3, ![512, 1024, 128]⟩
abbrev S1024x64x8x128 : Shape := ⟨4, ![1024, 64, 8, 128]⟩
abbrev S8x64x1024x1 : Shape := ⟨4, ![8, 64, 1024, 1]⟩
abbrev S128x128 : Shape := ⟨2, ![128, 128]⟩
abbrev S128 : Shape := ⟨1, ![128]⟩
abbrev S8x64x1024x128 : Shape := ⟨4, ![8, 64, 1024, 128]⟩
abbrev S_ : Shape := ⟨0, ![]⟩
abbrev S64x1024x1 : Shape := ⟨3, ![64, 1024, 1]⟩
abbrev S1x64x1024x1 : Shape := ⟨4, ![1, 64, 1024, 1]⟩
abbrev S1x1x1x128 : Shape := ⟨4, ![1, 1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S512x1024x128, .f32⟩
  | .hbm, ⟨1, _⟩ => ⟨S1024x64x8x128, .f32⟩
  | .hbm, ⟨2, _⟩ => ⟨S8x64x1024x1, .i32⟩
  | .hbm, ⟨3, _⟩ => ⟨S128x128, .f32⟩
  | .hbm, ⟨4, _⟩ => ⟨S128, .f32⟩
  | .hbm, ⟨5, _⟩ => ⟨S8x64x1024x1, .f32⟩
  | .hbm, ⟨6, _⟩ => ⟨S8x64x1024x128, .f32⟩
  | .hbm, ⟨7, _⟩ => ⟨S8x64x1024x128, .f32⟩
  | .hbm, ⟨8, _⟩ => ⟨S8x64x1024x128, .f32⟩
  | .hbm, ⟨9, _⟩ => ⟨S_, .f32⟩
  | .hbm, ⟨10, _⟩ => ⟨S64x1024x1, .f32⟩
  | .hbm, ⟨11, _⟩ => ⟨S1x64x1024x1, .f32⟩
  | .hbm, ⟨12, _⟩ => ⟨S_, .f32⟩
  | .hbm, ⟨13, _⟩ => ⟨S1x64x1024x1, .f32⟩
  | .hbm, ⟨14, _⟩ => ⟨S1x64x1024x1, .f32⟩
  | .hbm, ⟨15, _⟩ => ⟨S8x64x1024x128, .f32⟩
  | .hbm, ⟨16, _⟩ => ⟨S8x64x1024x128, .f32⟩
  | .hbm, ⟨17, _⟩ => ⟨S8x64x1024x128, .f32⟩
  | .hbm, ⟨18, _⟩ => ⟨S1x1x1x128, .f32⟩
  | .hbm, ⟨19, _⟩ => ⟨S8x64x1024x128, .f32⟩
  | .hbm, ⟨20, _⟩ => ⟨S8x64x1024x128, .f32⟩
  | .hbm, ⟨21, _⟩ => ⟨S512x1024x128, .f32⟩
  | .hbm, ⟨22, _⟩ => ⟨S512x1024x128, .f32⟩
  | _, _ => ⟨S512x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S1024x64x8x128_S8x64x1024x128_2_1_0_3 : S1024x64x8x128.Transposes [2, 1, 0, 3] S8x64x1024x128
  bcast_S8x64x1024x1_S8x64x1024x128_0_1_2_3 : S8x64x1024x1.BroadcastsInDim S8x64x1024x128 (![0, 1, 2, 3] : Fin 4 → Fin S8x64x1024x128.rank)
  reducesTo_S8x64x1024x1_S64x1024x1_d0 : S8x64x1024x1.ReducesTo [0] S64x1024x1
  h_S_ : 0 < S_.numel
  bcast_S64x1024x1_S1x64x1024x1_1_2_3 : S64x1024x1.BroadcastsInDim S1x64x1024x1 (![1, 2, 3] : Fin 3 → Fin S1x64x1024x1.rank)
  bcast_S_S1x64x1024x1 : S_.BroadcastsInDim S1x64x1024x1 (![] : Fin 0 → Fin S1x64x1024x1.rank)
  bcast_S1x64x1024x1_S8x64x1024x128_0_1_2_3 : S1x64x1024x1.BroadcastsInDim S8x64x1024x128 (![0, 1, 2, 3] : Fin 4 → Fin S8x64x1024x128.rank)
  bcast_S128_S1x1x1x128_3 : S128.BroadcastsInDim S1x1x1x128 (![3] : Fin 1 → Fin S1x1x1x128.rank)
  bcast_S1x1x1x128_S8x64x1024x128_0_1_2_3 : S1x1x1x128.BroadcastsInDim S8x64x1024x128 (![0, 1, 2, 3] : Fin 4 → Fin S8x64x1024x128.rank)
  shapeCasts_S8x64x1024x128_S512x1024x128 : S8x64x1024x128.ShapeCasts S512x1024x128
  dot_S8x64x1024x128_S128x128_S8x64x1024x128_3_1_012_0_n_n_wf : DotDims.WF S8x64x1024x128 S128x128 S8x64x1024x128 [3] [1] [0, 1, 2] [0] [] []

variable [Facts₀]

def dot_S8x64x1024x128_S128x128_S8x64x1024x128_3_1_012_0_n_n : DotDims S8x64x1024x128 S128x128 S8x64x1024x128 where
  lhsContracting := [3]
  rhsContracting := [1]
  lhsNonContracting := [0, 1, 2]
  rhsNonContracting := [0]
  lhsBatch := []
  rhsBatch := []
  wf := dot_S8x64x1024x128_S128x128_S8x64x1024x128_3_1_012_0_n_n_wf

class Facts : Prop extends Facts₀ where

variable [Facts]
-- ==== Proof.Spec.lean ====
/-
  The function both programs compute, written once over the extended reals.

  Hidden states `rnn[s, b, a, h]`, an integer alive flag `alive[a, b, s, 0]`, a weight matrix `W[o, h]` and a bias
  `bias[o]`. The alive flag read as a number is `f a b s`; the number of alive agents at `(b, s)` is the sum of
  `f a' b s` over the eight agents `a'`, and the divisor is that count or one, whichever is larger. The message of
  agent `a` at `(b, s)` has entries `rnn[s, b, a, h] · f a b s / divisor`, and the encoded message is its image under
  the linear layer: the sum over `h` of message entry times `W[o, h]`, plus `bias[o]`.

  The result adds this, re-laid from `[8, 64, 1024, 128]` to `[512, 1024, 128]` in row-major order, to the observation
  array. One program re-lays the observations first, adds, and re-lays the sum back; the other re-lays only the
  encoded message. `relay_add_relay` says these are one array: a row-major re-laying there and back is the identity,
  and it commutes with an entrywise sum.
-/
import Idealize.ShloMosaic.PureOps.Ideal
import Idealize.ShloMosaic.PureOps.Ideal.Laws
import Idealize.ShloMosaic.Lib.ValueIdx
import Idealize.ShloMosaic.Lib.Pipeline.Value

noncomputable section

namespace Cert.AgentMessage

open Idealize.ShloMosaic Idealize.ShloMosaic.ValueIdx
open scoped BigOperators

/-- The alive flag as a number: the signed reading of the word. -/
abbrev flag (x : BitVec 32) : EReal := FloatOps.sitofp (F := Ideal) .f32 x

/-- The word of the number one, the least divisor allowed. -/
abbrev one32 : EReal := Ideal.ofBits .f32 0x3F800000#32

/-- One entry of the encoded message from a row `r` of hidden states, the agent's flag `al`, the alive count `cnt`,
    a row `w` of the weight matrix and a bias entry `bo`:
    `Σ_h (r h · al / max cnt 1) · w h + bo`. -/
def encoded (r : Fin 128 → EReal) (al cnt : EReal) (w : Fin 128 → EReal) (bo : EReal) : EReal :=
  (∑ h : Fin 128, Ideal.div (r h * al) (max cnt one32) * w h) + bo

/-- The encoded message of agent `a` at batch entry `b` and step `s`, output feature `o`, over the whole arrays. -/
def message (rnn : FVec Ideal ⟨4, ![1024, 64, 8, 128]⟩ .f32) (alive : IVec ⟨4, ![8, 64, 1024, 1]⟩ 32)
    (W : FVec Ideal ⟨2, ![128, 128]⟩ .f32) (bias : FVec Ideal ⟨1, ![128]⟩ .f32)
    (a : Fin 8) (b : Fin 64) (s : Fin 1024) (o : Fin 128) : EReal :=
  encoded (fun h => rnn (ix4 s b a h)) (flag (alive (ix4 a b s (0 : Fin 1))))
    (∑ a' : Fin 8, flag (alive (ix4 a' b s (0 : Fin 1)))) (fun h => W (ix2 o h)) (bias (ix1 o))

/-- The same as an array of shape `[8, 64, 1024, 128]`. -/
def messages (rnn : FVec Ideal ⟨4, ![1024, 64, 8, 128]⟩ .f32) (alive : IVec ⟨4, ![8, 64, 1024, 1]⟩ 32)
    (W : FVec Ideal ⟨2, ![128, 128]⟩ .f32) (bias : FVec Ideal ⟨1, ![128]⟩ .f32) :
    FVec Ideal ⟨4, ![8, 64, 1024, 128]⟩ .f32 :=
  fun i => message rnn alive W bias (i 0) (i 1) (i 2) (i 3)

/-- Observations plus encoded messages, entry by entry, in the four-axis layout. -/
def updated (obs4 : FVec Ideal ⟨4, ![8, 64, 1024, 128]⟩ .f32) (rnn : FVec Ideal ⟨4, ![1024, 64, 8, 128]⟩ .f32)
    (alive : IVec ⟨4, ![8, 64, 1024, 1]⟩ 32) (W : FVec Ideal ⟨2, ![128, 128]⟩ .f32) (bias : FVec Ideal ⟨1, ![128]⟩ .f32) :
    FVec Ideal ⟨4, ![8, 64, 1024, 128]⟩ .f32 :=
  fun i => obs4 i + messages rnn alive W bias i

/-- Re-lay `x` from shape `t` to shape `s`, add `y` entry by entry, re-lay the sum back to `t`: this is `x` plus
    `y` re-laid to `t`. Both re-layings keep the row-major position, so going there and back returns each entry of
    `x` to its place. -/
theorem relay_add_relay {s t : Shape} (x : t.Idx → EReal) (y : s.Idx → EReal) (h' : t.ShapeCasts s) (h : s.ShapeCasts t) :
    shapeCast t (fun i => shapeCast s x h' i + y i) h = fun j => x j + shapeCast t y h j := by
  funext j
  show shapeCast t (shapeCast s x h') h j + shapeCast t y h j = x j + shapeCast t y h j
  rw [shapeCast_shapeCast]

end Cert.AgentMessage

end
-- ==== Proof.KernelPayload.lean ====
/-
  What the kernel body stores, read at one entry of its output block.

  A block holds the steps `ts` of one tile of 128 steps and the batch entries `tb` of one tile of 8. The body
  transposes the hidden-state block `[ts, tb, a, h]` to `[a, tb, ts, h]`, multiplies by the alive flags spread along
  `h`, divides by the larger of one and the flags summed over the agent axis, flattens the three leading axes to rows
  `r = (a · 8 + tb) · 128 + ts`, multiplies by the transposed weight matrix, adds the bias row, unflattens, and adds the
  observation block. Each layout step is read at an entry below; a flattening keeps the row-major position, a
  transpose permutes the coordinates, a spread reads coordinate zero on the axes of extent one. The matrix product into
  a zero accumulator is the plain sum over the contracted coordinate. Together: the stored entry at `(a, tb, ts, o)`
  is the observation entry plus `encoded` of the block's own hidden states, flags, weights and bias.
-/
import proofs.«161804_j42545946034942_1_alg».proof.Proof.Gen.KernelIdeal.Skeleton
import proofs.«161804_j42545946034942_1_alg».proof.Proof.Spec

noncomputable section

namespace Cert.AgentMessage.Kernel

open Idealize.ShloMosaic Idealize.ShloMosaic.ValueIdx Cert.KernelIdeal Cert.KernelIdeal.Gen Cert.AgentMessage
open scoped BigOperators

/-- The row of the flattened block that holds agent `a`, batch entry `tb`, step `ts`. -/
abbrev row (a tb : Fin 8) (ts : Fin 128) : Fin 8192 :=
  ⟨(a.val * 8 + tb.val) * 128 + ts.val, by have := a.isLt; have := tb.isLt; have := ts.isLt; omega⟩

section Layout
variable {α : Type}

/-- The transposed hidden-state block at `(a, tb, ts, k)` is the block at `(ts, tb, a, k)`. -/
theorem hidden_transposed (v : S128x8x8x128.Idx → α) (h : S128x8x8x128.Transposes [2, 1, 0, 3] S8x8x128x128)
    (a tb : Fin 8) (ts k : Fin 128) :
    transpose S8x8x128x128 [2, 1, 0, 3] v h (ix4 a tb ts k) = v (ix4 ts tb a k) :=
  transpose_apply [2, 1, 0, 3] v h (ix4 a tb ts k) (ix4 ts tb a k) (fun b => match b with
    | ⟨0, _⟩ => rfl
    | ⟨1, _⟩ => rfl
    | ⟨2, _⟩ => rfl
    | ⟨3, _⟩ => rfl)

/-- The flags spread along the feature axis: entry `(a, tb, ts, k)` reads the flag at `(a, tb, ts, 0)`. -/
theorem flag_spread (v : S8x8x128x1.Idx → α) (h : S8x8x128x1.Broadcasts S8x8x128x128) (a tb : Fin 8) (ts k : Fin 128) :
    broadcastTo S8x8x128x128 v h (ix4 a tb ts k) = v (ix4 a tb ts (0 : Fin 1)) :=
  broadcastTo_apply v h (ix4 a tb ts k) (ix4 a tb ts (0 : Fin 1)) (fun e => match e with
    | ⟨0, _⟩ => by show a.val = if (8 : Nat) = 1 then 0 else a.val; rw [if_neg (by decide)]
    | ⟨1, _⟩ => by show tb.val = if (8 : Nat) = 1 then 0 else tb.val; rw [if_neg (by decide)]
    | ⟨2, _⟩ => by show ts.val = if (128 : Nat) = 1 then 0 else ts.val; rw [if_neg (by decide)]
    | ⟨3, _⟩ => by show 0 = if (1 : Nat) = 1 then 0 else k.val; rw [if_pos rfl])

/-- The count given a leading axis of extent one: entry `(0, tb, ts, 0)` is the count at `(tb, ts, 0)`. -/
theorem count_lead (v : S8x128x1.Idx → α) (h : S8x128x1.ShapeCasts S1x8x128x1) (tb : Fin 8) (ts : Fin 128) :
    shapeCast S1x8x128x1 v h (ix4 (0 : Fin 1) tb ts (0 : Fin 1)) = v (ix3 tb ts (0 : Fin 1)) :=
  shapeCast_apply v h (ix4 (0 : Fin 1) tb ts (0 : Fin 1)) (ix3 tb ts (0 : Fin 1)) (by
    rw [Shape.rowMajor_val_three, Shape.rowMajor_val_four]
    show (tb.val * 128 + ts.val) * 1 + 0 = ((0 * 8 + tb.val) * 128 + ts.val) * 1 + 0
    omega)

/-- The divisor spread along the agent and feature axes: entry `(a, tb, ts, k)` reads `(0, tb, ts, 0)`. -/
theorem divisor_spread (v : S1x8x128x1.Idx → α) (h : S1x8x128x1.Broadcasts S8x8x128x128) (a tb : Fin 8) (ts k : Fin 128) :
    broadcastTo S8x8x128x128 v h (ix4 a tb ts k) = v (ix4 (0 : Fin 1) tb ts (0 : Fin 1)) :=
  broadcastTo_apply v h (ix4 a tb ts k) (ix4 (0 : Fin 1) tb ts (0 : Fin 1)) (fun e => match e with
    | ⟨0, _⟩ => by show 0 = if (1 : Nat) = 1 then 0 else a.val; rw [if_pos rfl]
    | ⟨1, _⟩ => by show tb.val = if (8 : Nat) = 1 then 0 else tb.val; rw [if_neg (by decide)]
    | ⟨2, _⟩ => by show ts.val = if (128 : Nat) = 1 then 0 else ts.val; rw [if_neg (by decide)]
    | ⟨3, _⟩ => by show 0 = if (1 : Nat) = 1 then 0 else k.val; rw [if_pos rfl])

/-- Flattening keeps the row-major position: row `row a tb ts`, column `k` reads `(a, tb, ts, k)`. -/
theorem flattened (v : S8x8x128x128.Idx → α) (h : S8x8x128x128.ShapeCasts S8192x128) (a tb : Fin 8) (ts k : Fin 128) :
    shapeCast S8192x128 v h (ix2 (row a tb ts) k) = v (ix4 a tb ts k) :=
  shapeCast_apply v h (ix2 (row a tb ts) k) (ix4 a tb ts k) (by
    rw [Shape.rowMajor_val_four, Shape.rowMajor_val_two]
    show ((a.val * 8 + tb.val) * 128 + ts.val) * 128 + k.val = ((a.val * 8 + tb.val) * 128 + ts.val) * 128 + k.val
    rfl)

/-- And back: entry `(a, tb, ts, o)` reads row `row a tb ts`, column `o`. -/
theorem unflattened (v : S8192x128.Idx → α) (h : S8192x128.ShapeCasts S8x8x128x128) (a tb : Fin 8) (ts o : Fin 128) :
    shapeCast S8x8x128x128 v h (ix4 a tb ts o) = v (ix2 (row a tb ts) o) :=
  shapeCast_apply v h (ix4 a tb ts o) (ix2 (row a tb ts) o) (by
    rw [Shape.rowMajor_val_two, Shape.rowMajor_val_four]
    show ((a.val * 8 + tb.val) * 128 + ts.val) * 128 + o.val = ((a.val * 8 + tb.val) * 128 + ts.val) * 128 + o.val
    rfl)

/-- The transposed weight matrix at `(k, o)` is the matrix at `(o, k)`. -/
theorem weight_transposed (v : S128x128.Idx → α) (h : S128x128.Transposes [1, 0] S128x128) (k o : Fin 128) :
    transpose S128x128 [1, 0] v h (ix2 k o) = v (ix2 o k) :=
  transpose_apply [1, 0] v h (ix2 k o) (ix2 o k) (fun b => match b with
    | ⟨0, _⟩ => rfl
    | ⟨1, _⟩ => rfl)

/-- The bias as a one-row matrix at `(0, o)` is the bias at `o`. -/
theorem bias_row (v : S128.Idx → α) (h : S128.ShapeCasts S1x128) (o : Fin 128) :
    shapeCast S1x128 v h (ix2 (0 : Fin 1) o) = v (ix1 o) :=
  shapeCast_apply v h (ix2 (0 : Fin 1) o) (ix1 o) (by
    rw [Shape.rowMajor_val_one, Shape.rowMajor_val_two]
    show o.val = 0 * 128 + o.val
    omega)

/-- The bias row spread over all rows: entry `(r, o)` reads `(0, o)`. -/
theorem bias_spread (v : S1x128.Idx → α) (h : S1x128.Broadcasts S8192x128) (r : Fin 8192) (o : Fin 128) :
    broadcastTo S8192x128 v h (ix2 r o) = v (ix2 (0 : Fin 1) o) :=
  broadcastTo_apply v h (ix2 r o) (ix2 (0 : Fin 1) o) (fun e => match e with
    | ⟨0, _⟩ => by show 0 = if (1 : Nat) = 1 then 0 else r.val; rw [if_pos rfl]
    | ⟨1, _⟩ => by show o.val = if (128 : Nat) = 1 then 0 else o.val; rw [if_neg (by decide)])

end Layout

/-- The flags summed over the agent axis from the zero word: at `(tb, ts, 0)` the sum over the eight agents. -/
theorem count_sum (v : FVec Ideal S8x8x128x1 .f32) (h : S8x8x128x1.Reduces [0] S8x128x1) (hφ : FKind.Formats .f32)
    (hacc : (0x00000000#32 : BitVec 32) = 0x00000000#32) (tb : Fin 8) (ts : Fin 128) :
    multiReduction .add [0] S8x128x1 v 0x00000000#32 h hφ hacc (ix3 tb ts (0 : Fin 1))
      = ∑ a' : Fin 8, v (ix4 a' tb ts (0 : Fin 1)) :=
  (Ideal.multiReduction_add_single v 0x00000000#32 h hφ hacc (ix3 tb ts (0 : Fin 1))).trans
    (Finset.sum_congr rfl fun a' _ => congrArg v (funext fun e => Fin.ext (by
      match e with
      | ⟨0, _⟩ => rfl
      | ⟨1, _⟩ => rfl
      | ⟨2, _⟩ => rfl
      | ⟨3, _⟩ => rfl)))

/-! ## The matrix product -/

theorem lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_contracted (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_contracted (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_column (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Rows times columns into a zero accumulator: entry `(r, o)` is the sum over `k` of `l (r, k) · w (k, o)`. -/
theorem product_apply (l : FVec Ideal S8192x128 .f32) (w : FVec Ideal S128x128 .f32) (r : Fin 8192) (o : Fin 128) :
    matmul dot_S8192x128_S128x128_S8192x128_1_0_0_1_n_n none l w (constant (F := Ideal) S8192x128 .f32 0x00000000#32) (ix2 r o)
      = ∑ k : Fin 128, l (ix2 r k) * w (ix2 k o) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r o) ((contrEquiv1 dot_S8192x128_S128x128_S8192x128_1_0_0_1_n_n 128 rfl rfl).symm k) = ix2 r k := funext fun a => Fin.ext (by
    match a with
    | ⟨0, _⟩ => exact lhs_row _ _
    | ⟨1, _⟩ => exact (lhs_contracted _ _).trans hk)
  have er : dot_S8192x128_S128x128_S8192x128_1_0_0_1_n_n.rhsIdx (ix2 r o) ((contrEquiv1 dot_S8192x128_S128x128_S8192x128_1_0_0_1_n_n 128 rfl rfl).symm k) = ix2 k o := funext fun a => Fin.ext (by
    match a with
    | ⟨0, _⟩ => exact (rhs_contracted _ _).trans hk
    | ⟨1, _⟩ => exact rhs_column _ _)
  rw [el, er]

/-! ## The stored entry -/

/-- The body's stored value at `(a, tb, ts, o)`: the observation entry plus the encoded message computed from the
    block's own hidden states, flags, weights and bias. -/
theorem stored_apply (x0 : Vec Ideal S128x8x8x128 .f32) (x1 : Vec Ideal S8x8x128x1 .i32) (x3 : Vec Ideal S128x128 .f32)
    (x4 : Vec Ideal S128 .f32) (x2 : Vec Ideal S8x8x128x128 .f32) (a tb : Fin 8) (ts o : Fin 128) :
    k0_pay1 (F := Ideal) x0 x1 x3 x4 x2 (ix4 a tb ts o)
      = x2 (ix4 a tb ts o) + encoded (fun k => x0 (ix4 ts tb a k)) (flag (x1 (ix4 a tb ts (0 : Fin 1))))
          (∑ a' : Fin 8, flag (x1 (ix4 a' tb ts (0 : Fin 1)))) (fun k => x3 (ix2 o k)) (x4 (ix1 o)) := by
  unfold k0_pay1
  dsimp only
  rw [addf_apply, shapeCast_self, unflattened, addf_apply, product_apply, bias_spread, bias_row]
  simp only [flattened, divf_apply, mulf_apply, hidden_transposed (α := Ideal .f32) x0, flag_spread, divisor_spread,
    maximumf_apply, count_lead, broadcast_apply, sitofp_apply, weight_transposed (α := Ideal .f32) x3]
  rw [count_sum]
  simp only [encoded, sitofp_apply]
  rfl

end Cert.AgentMessage.Kernel

end
-- ==== Proof.KernelArray.lean ====
/-
  From what one grid point stores to the whole output array.

  The grid has 8 × 8 points; point `t` works on the tile of 128 steps numbered `sb` and the tile of 8 batch entries
  numbered `bb`. Its output block is the part `[all agents, bb·8 … bb·8+7, sb·128 … sb·128+127, all features]` of the
  `[8, 64, 1024, 128]` array, its observation and flag blocks sit at the same batch and step tiles, its hidden-state
  block at step tile `sb` and batch tile `bb` of the `[1024, 64, 8, 128]` array, and the weight matrix and the bias
  are fetched whole. These relations between the six index maps are decided once over the 64 points. An entry of a
  block sits in its array, on each axis, at block index times block extent plus its coordinate in the block. So the
  hidden states, flags, observation, weights and bias the body reads at block coordinates `(a, tb, ts, ·)` are the
  arrays' at `(a, bb·8 + tb, sb·128 + ts, ·)`, and what point `t` writes back is its block of `updated` of the
  arrays. Every index of the output lies in the block of the point with `bb = b / 8`, `sb = s / 128`, so after the run
  the output array is `updated` of the arrays as the region found them.
-/
import proofs.«161804_j42545946034942_1_alg».proof.Proof.Gen.KernelIdeal.Frame
import proofs.«161804_j42545946034942_1_alg».proof.Proof.KernelPayload
import Idealize.ShloMosaic.Lib.Pipeline.Value

noncomputable section

namespace Cert.AgentMessage.Kernel

open Cert.KernelIdeal Cert.KernelIdeal.Gen Idealize.ShloMosaic Idealize.ShloMosaic.TcCoe Idealize.SL.Sem
open Idealize.ShloMosaic.ValueIdx Cert.AgentMessage
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The six index maps against the output's, at every grid point: the hidden-state block swaps the step and batch
    tiles into its first two axes; flags and observations move with the output; weights and bias stay at block zero;
    the output's tiles number at most 7 on the batch and step axes and are zero on the agent and feature axes. -/
theorem index_facts : ∀ t : Fin cfg0.N,
    win0_0.index t (0 : Fin 4) = win0_5.index t (2 : Fin 4)
    ∧ win0_0.index t (1 : Fin 4) = win0_5.index t (1 : Fin 4)
    ∧ win0_0.index t (2 : Fin 4) = 0
    ∧ win0_0.index t (3 : Fin 4) = 0
    ∧ win0_1.index t (0 : Fin 4) = 0
    ∧ win0_1.index t (1 : Fin 4) = win0_5.index t (1 : Fin 4)
    ∧ win0_1.index t (2 : Fin 4) = win0_5.index t (2 : Fin 4)
    ∧ win0_1.index t (3 : Fin 4) = 0
    ∧ win0_2.index t (0 : Fin 4) = 0
    ∧ win0_2.index t (1 : Fin 4) = win0_5.index t (1 : Fin 4)
    ∧ win0_2.index t (2 : Fin 4) = win0_5.index t (2 : Fin 4)
    ∧ win0_2.index t (3 : Fin 4) = 0
    ∧ win0_3.index t (0 : Fin 2) = 0
    ∧ win0_3.index t (1 : Fin 2) = 0
    ∧ win0_4.index t (0 : Fin 1) = 0
    ∧ win0_5.index t (0 : Fin 4) = 0
    ∧ win0_5.index t (3 : Fin 4) = 0
    ∧ win0_5.index t (1 : Fin 4) ≤ 7
    ∧ win0_5.index t (2 : Fin 4) ≤ 7 :=
  (by decide +kernel : ∀ t : Fin grid0.N, _)

/-- Every pair of a batch tile and a step tile is some point's. -/
theorem index_onto : ∀ (qb : Fin 8) (qs : Fin 8), ∃ t : Fin cfg0.N, win0_5.index t = ![0, qb.val, qs.val, 0] :=
  (by decide +kernel : ∀ (qb : Fin 8) (qs : Fin 8), ∃ t : Fin grid0.N, win0_5.index t = ![0, qb.val, qs.val, 0])

/-- WHAT POINT `t` WRITES BACK is its block of `updated` of the arrays as the region finds them. -/
theorem flushed_eq (c : Dev nD) (t : Fin cfg0.N) :
    (dats m 0 c).flushed 5 t = ((cfg0.win 5).blk t).view.read (Elt Ideal)
      (updated (V m c main_v0) (V m c main_arg1) (V m c main_arg2) (V m c main_arg3) (V m c main_arg4)) := by
  show (cfg0.win 5).cut (grid0.coords t) ((dats m 0 c).after 5 t) = _
  rw [after0_5]
  unfold out0_5
  rw [View.canon_unit_zero zeros4]
  simp only [View.ld_unit_zero (S := S128x8x8x128) zeros4, View.ld_unit_zero (S := S8x8x128x1) zeros4,
    View.ld_unit_zero (S := S8x8x128x128) zeros4, View.ld_unit_zero (S := S128x128) zeros2,
    View.ld_unit_zero (S := S128) zeros1]
  obtain ⟨f00, f01, f02, f03, f10, f11, f12, f13, f20, f21, f22, f23, f30, f31, f40, f50, f53, hb, hs⟩ := index_facts t
  funext j
  obtain ⟨a, tb, ts, o, rfl⟩ : ∃ (a tb : Fin 8) (ts o : Fin 128), j = ix4 a tb ts o := ⟨j 0, j 1, j 2, j 3, eq_ix4 j⟩
  show k0_pay1 (F := Ideal) (iblk m c 0 t) (iblk m c 1 t) (iblk m c 3 t) (iblk m c 4 t) (iblk m c 2 t) (ix4 a tb ts o)
      = updated (V m c main_v0) (V m c main_arg1) (V m c main_arg2) (V m c main_arg3) (V m c main_arg4)
          (((cfg0.win 5).blk t).view.emb (ix4 a tb ts o))
  refine (stored_apply (iblk m c 0 t) (iblk m c 1 t) (iblk m c 3 t) (iblk m c 4 t) (iblk m c 2 t) a tb ts o).trans ?_
  -- where each block's entries sit in its array
  have E0 : ∀ (ts' : Fin 128) (tb' a' : Fin 8) (k : Fin 128), ((cfg0.win 0).blk t).view.emb (ix4 ts' tb' a' k)
      = ix4 (⟨win0_5.index t (2 : Fin 4) * 128 + ts'.val, by omega⟩ : Fin 1024)
          (⟨win0_5.index t (1 : Fin 4) * 8 + tb'.val, by omega⟩ : Fin 64) a' k := by
    intro ts' tb' a' k
    funext e; apply Fin.ext
    match e with
    | ⟨0, _⟩ => show win0_0.index t (0 : Fin 4) * 128 + 1 * ts'.val = win0_5.index t (2 : Fin 4) * 128 + ts'.val; omega
    | ⟨1, _⟩ => show win0_0.index t (1 : Fin 4) * 8 + 1 * tb'.val = win0_5.index t (1 : Fin 4) * 8 + tb'.val; omega
    | ⟨2, _⟩ => show win0_0.index t (2 : Fin 4) * 8 + 1 * a'.val = a'.val; omega
    | ⟨3, _⟩ => show win0_0.index t (3 : Fin 4) * 128 + 1 * k.val = k.val; omega
  have E1 : ∀ (a' tb' : Fin 8) (ts' : Fin 128), ((cfg0.win 1).blk t).view.emb (ix4 a' tb' ts' (0 : Fin 1))
      = ix4 a' (⟨win0_5.index t (1 : Fin 4) * 8 + tb'.val, by omega⟩ : Fin 64)
          (⟨win0_5.index t (2 : Fin 4) * 128 + ts'.val, by omega⟩ : Fin 1024) (0 : Fin 1) := by
    intro a' tb' ts'
    funext e; apply Fin.ext
    match e with
    | ⟨0, _⟩ => show win0_1.index t (0 : Fin 4) * 8 + 1 * a'.val = a'.val; omega
    | ⟨1, _⟩ => show win0_1.index t (1 : Fin 4) * 8 + 1 * tb'.val = win0_5.index t (1 : Fin 4) * 8 + tb'.val; omega
    | ⟨2, _⟩ => show win0_1.index t (2 : Fin 4) * 128 + 1 * ts'.val = win0_5.index t (2 : Fin 4) * 128 + ts'.val; omega
    | ⟨3, _⟩ => show win0_1.index t (3 : Fin 4) * 1 + 1 * 0 = 0; omega
  have E2 : ((cfg0.win 2).blk t).view.emb (ix4 a tb ts o)
      = ix4 a (⟨win0_5.index t (1 : Fin 4) * 8 + tb.val, by omega⟩ : Fin 64)
          (⟨win0_5.index t (2 : Fin 4) * 128 + ts.val, by omega⟩ : Fin 1024) o := by
    funext e; apply Fin.ext
    match e with
    | ⟨0, _⟩ => show win0_2.index t (0 : Fin 4) * 8 + 1 * a.val = a.val; omega
    | ⟨1, _⟩ => show win0_2.index t (1 : Fin 4) * 8 + 1 * tb.val = win0_5.index t (1 : Fin 4) * 8 + tb.val; omega
    | ⟨2, _⟩ => show win0_2.index t (2 : Fin 4) * 128 + 1 * ts.val = win0_5.index t (2 : Fin 4) * 128 + ts.val; omega
    | ⟨3, _⟩ => show win0_2.index t (3 : Fin 4) * 128 + 1 * o.val = o.val; omega
  have E3 : ∀ k : Fin 128, ((cfg0.win 3).blk t).view.emb (ix2 o k) = ix2 o k := by
    intro k
    funext e; apply Fin.ext
    match e with
    | ⟨0, _⟩ => show win0_3.index t (0 : Fin 2) * 128 + 1 * o.val = o.val; omega
    | ⟨1, _⟩ => show win0_3.index t (1 : Fin 2) * 128 + 1 * k.val = k.val; omega
  have E4 : ((cfg0.win 4).blk t).view.emb (ix1 o) = ix1 o := by
    funext e; apply Fin.ext
    match e with
    | ⟨0, _⟩ => show win0_4.index t (0 : Fin 1) * 128 + 1 * o.val = o.val; omega
  have E5 : ((cfg0.win 5).blk t).view.emb (ix4 a tb ts o)
      = ix4 a (⟨win0_5.index t (1 : Fin 4) * 8 + tb.val, by omega⟩ : Fin 64)
          (⟨win0_5.index t (2 : Fin 4) * 128 + ts.val, by omega⟩ : Fin 1024) o := by
    funext e; apply Fin.ext
    match e with
    | ⟨0, _⟩ => show win0_5.index t (0 : Fin 4) * 8 + 1 * a.val = a.val; omega
    | ⟨1, _⟩ => show win0_5.index t (1 : Fin 4) * 8 + 1 * tb.val = win0_5.index t (1 : Fin 4) * 8 + tb.val; omega
    | ⟨2, _⟩ => show win0_5.index t (2 : Fin 4) * 128 + 1 * ts.val = win0_5.index t (2 : Fin 4) * 128 + ts.val; omega
    | ⟨3, _⟩ => show win0_5.index t (3 : Fin 4) * 128 + 1 * o.val = o.val; omega
  -- so each block entry the body reads is its array's entry there
  have R0 : ∀ (ts' : Fin 128) (tb' a' : Fin 8) (k : Fin 128), iblk m c 0 t (ix4 ts' tb' a' k)
      = V m c main_arg1 (ix4 (⟨win0_5.index t (2 : Fin 4) * 128 + ts'.val, by omega⟩ : Fin 1024)
          (⟨win0_5.index t (1 : Fin 4) * 8 + tb'.val, by omega⟩ : Fin 64) a' k) := by
    intro ts' tb' a' k
    show V m c main_arg1 (((cfg0.win 0).blk t).view.emb (ix4 ts' tb' a' k)) = _
    rw [E0]
  have R1 : ∀ (a' tb' : Fin 8) (ts' : Fin 128), iblk m c 1 t (ix4 a' tb' ts' (0 : Fin 1))
      = V m c main_arg2 (ix4 a' (⟨win0_5.index t (1 : Fin 4) * 8 + tb'.val, by omega⟩ : Fin 64)
          (⟨win0_5.index t (2 : Fin 4) * 128 + ts'.val, by omega⟩ : Fin 1024) (0 : Fin 1)) := by
    intro a' tb' ts'
    show V m c main_arg2 (((cfg0.win 1).blk t).view.emb (ix4 a' tb' ts' (0 : Fin 1))) = _
    rw [E1]
  have R2 : iblk m c 2 t (ix4 a tb ts o)
      = V m c main_v0 (ix4 a (⟨win0_5.index t (1 : Fin 4) * 8 + tb.val, by omega⟩ : Fin 64)
          (⟨win0_5.index t (2 : Fin 4) * 128 + ts.val, by omega⟩ : Fin 1024) o) := by
    show V m c main_v0 (((cfg0.win 2).blk t).view.emb (ix4 a tb ts o)) = _
    rw [E2]
  have R3 : ∀ k : Fin 128, iblk m c 3 t (ix2 o k) = V m c main_arg3 (ix2 o k) := by
    intro k
    show V m c main_arg3 (((cfg0.win 3).blk t).view.emb (ix2 o k)) = _
    rw [E3]
  have R4 : iblk m c 4 t (ix1 o) = V m c main_arg4 (ix1 o) := by
    show V m c main_arg4 (((cfg0.win 4).blk t).view.emb (ix1 o)) = _
    rw [E4]
  rw [E5]
  simp only [R0, R1, R2, R3, R4]
  rfl

/-- An index of the output array is in point `t`'s block iff each coordinate is in the block's range on its axis. -/
theorem mem_block (t : Fin cfg0.N) (i : S8x64x1024x128.Idx) :
    i ∈ ((cfg0.win 5).blk t).view.set ↔ ∀ a : Fin 4, win0_5.index t a * S8x8x128x128.size a ≤ (i a).val
      ∧ (i a).val < win0_5.index t a * S8x8x128x128.size a + S8x8x128x128.size a := by
  show i ∈ ((View.whole main_v1).slice (win0_5.rect t)).set ↔ _
  rw [View.set_slice_whole, Rect.mem_set_unit]
  exact Iff.rfl

/-- Every index of the output array is in some point's block: the point of batch tile `b / 8` and step tile `s / 128`. -/
theorem covered (i : S8x64x1024x128.Idx) :
    ∃ t : Fin cfg0.N, (cfg0.win 5).flush t = true ∧ i ∈ ((cfg0.win 5).blk t).view.set := by
  have h0 : (i 0).val < 8 := (i 0).isLt
  have h1 : (i 1).val < 64 := (i 1).isLt
  have h2 : (i 2).val < 1024 := (i 2).isLt
  have h3 : (i 3).val < 128 := (i 3).isLt
  obtain ⟨t, ht⟩ := index_onto ⟨(i 1).val / 8, by omega⟩ ⟨(i 2).val / 128, by omega⟩
  have q0 : win0_5.index t (0 : Fin 4) = 0 := congrFun ht 0
  have q1 : win0_5.index t (1 : Fin 4) = (i 1).val / 8 := congrFun ht 1
  have q2 : win0_5.index t (2 : Fin 4) = (i 2).val / 128 := congrFun ht 2
  have q3 : win0_5.index t (3 : Fin 4) = 0 := congrFun ht 3
  refine ⟨t, flush0_5 t, ?_⟩
  rw [mem_block]
  intro a
  match a with
  | ⟨0, _⟩ => show win0_5.index t (0 : Fin 4) * 8 ≤ (i 0).val ∧ (i 0).val < win0_5.index t (0 : Fin 4) * 8 + 8; omega
  | ⟨1, _⟩ => show win0_5.index t (1 : Fin 4) * 8 ≤ (i 1).val ∧ (i 1).val < win0_5.index t (1 : Fin 4) * 8 + 8; omega
  | ⟨2, _⟩ => show win0_5.index t (2 : Fin 4) * 128 ≤ (i 2).val ∧ (i 2).val < win0_5.index t (2 : Fin 4) * 128 + 128; omega
  | ⟨3, _⟩ => show win0_5.index t (3 : Fin 4) * 128 ≤ (i 3).val ∧ (i 3).val < win0_5.index t (3 : Fin 4) * 128 + 128; omega

/-- THE OUTPUT ARRAY after the run: `updated` of the arrays as the region found them. -/
theorem final (c : Dev nD) : (dats m 0 c).arrAt 5 cfg0.N
    = updated (V m c main_v0) (V m c main_arg1) (V m c main_arg2) (V m c main_arg3) (V m c main_arg4) :=
  (dats m 0 c).arrAt_eq_of_cover 5 _ (fun t _ => flushed_eq m c t) covered

end Cert.AgentMessage.Kernel

end
-- ==== Proof.KernelValue.lean ====
/-
  The kernel program's result, as one function of its arguments.

  Before the region the program re-lays the observations `[512, 1024, 128]` to `[8, 64, 1024, 128]`; the region then
  leaves `updated` of that array and of the other four arguments, which it finds as launched; after the region the
  program re-lays the output back to `[512, 1024, 128]`. Re-laying there, adding, and re-laying back is adding the
  re-laid summand (`relay_add_relay`): the result is the observations plus the encoded messages re-laid to three axes.
  The run below is the generated frame run with that result named and the arguments read as unchanged.
-/
import proofs.«161804_j42545946034942_1_alg».proof.Proof.KernelArray
import Idealize.ShloMosaic.Lib.StableHlo.Run

noncomputable section

namespace Cert.AgentMessage.Kernel

open Cert.KernelIdeal Cert.KernelIdeal.Gen Idealize.ShloMosaic Idealize.ShloMosaic.TcCoe Idealize.SL.Sem
open Idealize.ShloMosaic.ValueIdx Cert.AgentMessage Idealize.ShloMosaic.StableHlo
open Idealize.ShloMosaic.Pipeline (Dat)

variable (m : (ℓ : Loc nD τ sig) → Buf (Elt Ideal) ℓ) (ρ : Dev nD → PrngReg)

/-- The observations as the region finds them: the argument re-laid to four axes. -/
theorem observations_relaid (c : Dev nD) :
    (V m c main_v0 : S8x64x1024x128.Idx → EReal)
      = shapeCast S8x64x1024x128 (m ((c.tc : Thread nD τ).loc main_arg0)) shapeCasts_S512x1024x128_S8x64x1024x128 := by
  show StableHlo.after hostOps0 (fun b => m (c, b)) (Proc.devRef .tc main_v0) = _
  after_results
  rfl

/-- The program's result: the output array after the region, re-laid to three axes. -/
theorem result_relaid (c : Dev nD) :
    (Pipeline.afterTail₀ cfgs (dats m) 0 (V0 m) [hostOps1] c main_v2 : S512x1024x128.Idx → EReal)
      = shapeCast S512x1024x128 ((dats m 0 c).arrAt 5 cfg0.N) shapeCasts_S8x64x1024x128_S512x1024x128 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = (dats m 0 c).arrAt 5 cfg0.N :=
    Pipeline.withArrays_arr spec0 launch0.win.arr_inj c _ _ 5
  rw [hw]
  rfl

/-- THE VALUE: the observations plus the encoded messages of the arguments, re-laid to `[512, 1024, 128]`. -/
theorem value (c : Dev nD) :
    (Pipeline.afterTail₀ cfgs (dats m) 0 (V0 m) [hostOps1] c main_v2 : S512x1024x128.Idx → EReal)
      = addf (m ((c.tc : Thread nD τ).loc main_arg0))
          (shapeCast S512x1024x128 (messages (m ((c.tc : Thread nD τ).loc main_arg1)) (m ((c.tc : Thread nD τ).loc main_arg2))
            (m ((c.tc : Thread nD τ).loc main_arg3)) (m ((c.tc : Thread nD τ).loc main_arg4)))
            shapeCasts_S8x64x1024x128_S512x1024x128) := by
  rw [result_relaid, final, observations_relaid, V_main_arg1, V_main_arg2, V_main_arg3, V_main_arg4]
  exact relay_add_relay _ _ _ _

/-- The run: every weakly fair execution of the program terminates with its result at `value` and its five
    arguments as launched. -/
theorem run : θ_run defs (onTc (τ := τ) (main (F := Ideal))) ⟨m, fun _ => 0, ρ⟩ fun r => ∀ c : Dev nD,
      r.2.mem ((c.tc : Thread nD τ).loc main_v2)
        = addf (m ((c.tc : Thread nD τ).loc main_arg0))
            (shapeCast S512x1024x128 (messages (m ((c.tc : Thread nD τ).loc main_arg1)) (m ((c.tc : Thread nD τ).loc main_arg2))
              (m ((c.tc : Thread nD τ).loc main_arg3)) (m ((c.tc : Thread nD τ).loc main_arg4)))
              shapeCasts_S8x64x1024x128_S512x1024x128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.AgentMessage.Kernel

end
-- ==== Proof.ReferenceMessages.lean ====
/-
  The reference computes the encoded messages of Spec.lean.

  Read at an index `(a, b, s, o)`, the reference's array before its last re-laying is the bias entry `bias[o]` added to
  a sum over `h` of a quotient times `W[o, h]`: the quotient's numerator is the transposed hidden state `rnn[s, b, a, h]`
  times the alive flag at `(a, b, s)` spread along `h`, its denominator the larger of one and the flags summed over
  the agent axis from zero, spread along the agent and feature axes. Each operation is read at an index by its
  generated reading lemma; what remains is to see that the composed index functions are the coordinates above, and
  that a sum started from the zero word is the bare sum.
-/
import proofs.«161804_j42545946034942_1_alg».proof.Proof.Gen.ReferenceIdeal.Read
import proofs.«161804_j42545946034942_1_alg».proof.Proof.Spec

noncomputable section

namespace Cert.AgentMessage.Reference

open Idealize.ShloMosaic Idealize.ShloMosaic.ValueIdx Cert.ReferenceIdeal Cert.ReferenceIdeal.Gen Cert.ReferenceIdeal.Read Cert.AgentMessage
open scoped BigOperators

/-- The reference's array of encoded messages is `messages` of its arguments. -/
theorem stage_eq_messages (x1 : FVec Ideal S1024x64x8x128 .f32) (x2 : IVec S8x64x1024x1 32)
    (x3 : FVec Ideal S128x128 .f32) (x4 : FVec Ideal S128 .f32) :
    val_main_v13 (F := Ideal) x1 x2 x3 x4 = messages x1 x2 x3 x4 := by
  funext i
  obtain ⟨a, b, s, o, rfl⟩ : ∃ (a : Fin 8) (b : Fin 64) (s : Fin 1024) (o : Fin 128), i = ix4 a b s o :=
    ⟨i 0, i 1, i 2, i 3, eq_ix4 i⟩
  -- the hidden state under the transpose, at contraction coordinate `k`
  have e1 : ∀ k : Fin 128, idx_main_v1 (lidx_main_v10 (ix4 a b s o) k) = ix4 s b a k := fun k =>
    funext fun e => Fin.ext (by match e with | ⟨0, _⟩ => rfl | ⟨1, _⟩ => rfl | ⟨2, _⟩ => rfl | ⟨3, _⟩ => rfl)
  -- the agent's own flag
  have e2 : ∀ k : Fin 128, idx_main_v2 (lidx_main_v10 (ix4 a b s o) k) = ix4 a b s (0 : Fin 1) := fun k =>
    funext fun e => Fin.ext (by match e with | ⟨0, _⟩ => rfl | ⟨1, _⟩ => rfl | ⟨2, _⟩ => rfl | ⟨3, _⟩ => rfl)
  -- the flag of agent `k'` inside the count
  have e3 : ∀ (k : Fin 128) (k' : Fin 8),
      idx_main_v4 (idx_main_v5 (idx_main_v8 (lidx_main_v10 (ix4 a b s o) k))) k' = ix4 k' b s (0 : Fin 1) := fun k k' =>
    funext fun e => Fin.ext (by match e with | ⟨0, _⟩ => rfl | ⟨1, _⟩ => rfl | ⟨2, _⟩ => rfl | ⟨3, _⟩ => rfl)
  -- the weight entry
  have e4 : ∀ k : Fin 128, ridx_main_v10 (ix4 a b s o) k = ix2 o k := fun k =>
    funext fun e => Fin.ext (by match e with | ⟨0, _⟩ => rfl | ⟨1, _⟩ => rfl)
  -- the bias entry
  have e5 : idx_main_v11 (idx_main_v12 (ix4 a b s o)) = ix1 o :=
    funext fun e => Fin.ext (by match e with | ⟨0, _⟩ => rfl)
  rw [val_main_v13_apply, val_main_v10_apply, val_main_v12_apply, val_main_v11_apply]
  simp only [val_main_v9_apply, val_main_v3_apply, val_main_v1_apply, val_main_v2_apply, val_main_v0_apply,
    val_main_v8_apply, val_main_v7_apply, val_main_v5_apply, val_main_v4_apply, val_main_v6_apply,
    val_main_cst_0_apply, val_main_cst_apply, e1, e2, e3, e4, e5]
  simp only [Ideal.hostDivf_def, Ideal.mulf_def, Ideal.maximumf_def, Ideal.addf_def, Ideal.ofBits_def,
    Ideal.ofBits_zero_f32, zero_add]
  rfl

/-- The reference's result: the observations plus the encoded messages re-laid to `[512, 1024, 128]`. -/
theorem result_eq (x0 : FVec Ideal S512x1024x128 .f32) (x1 : FVec Ideal S1024x64x8x128 .f32) (x2 : IVec S8x64x1024x1 32)
    (x3 : FVec Ideal S128x128 .f32) (x4 : FVec Ideal S128 .f32) :
    val_main_v15 (F := Ideal) x0 x1 x2 x3 x4
      = addf x0 (shapeCast S512x1024x128 (messages x1 x2 x3 x4) shapeCasts_S8x64x1024x128_S512x1024x128) := by
  show addf x0 (shapeCast S512x1024x128 (val_main_v13 (F := Ideal) x1 x2 x3 x4) shapeCasts_S8x64x1024x128_S512x1024x128) = _
  rw [stage_eq_messages]

end Cert.AgentMessage.Reference

end
-- ==== Proof.lean ====
/-
  Kernel and reference compute one function over the extended reals.

  Both take observations `obs[512, 1024, 128]`, hidden states `rnn[1024, 64, 8, 128]`, integer alive flags
  `alive[8, 64, 1024, 1]`, a weight matrix `W[128, 128]` and a bias `b[128]`. For agent `a`, batch entry `b` and step
  `s` the message is the hidden state `rnn[s, b, a, ·]` times the agent's flag, divided by the number of alive agents
  at `(b, s)` or by one if none is alive; the encoded message is its image under the linear layer `x ↦ W x + bias`; and
  the result adds the encoded messages, laid out as `[8 · 64, 1024, 128]` in row-major order, to the observations.

  The reference does this on whole arrays. The kernel walks an 8 × 8 grid of tiles (128 steps × 8 batch entries, all
  agents, all features), transposes each hidden-state tile, forms the quotient, flattens the tile to 8192 rows for one
  matrix product with the transposed weights, and adds the observation tile; a re-laying of the observations before
  the grid and of the output after it brings both to the reference's layout. Neither the tiling, nor the flattening,
  nor taking the product against `Wᵀ` as a plain matrix product changes any entry: the sum over the agents and the sum
  over the contracted feature are the same sums over the same index sets, term by term, so no rearrangement law of
  the extended reals is used and the finiteness of the inputs is never opened.

  Spec.lean states the function; ReferenceMessages.lean reads the reference's generated run as it; KernelPayload.lean
  reads one stored entry of the kernel body as it; KernelArray.lean passes from tiles to the whole output array;
  KernelValue.lean adds the two re-layings and states the kernel program's run. The frames of the two kernel programs
  are the generated ones, the reference's frame is its generated run with the result dropped, and the idealized
  kernel is the kernel's own text (no rewrite was applied), so that conjunct is trivial.
-/
import proofs.«161804_j42545946034942_1_alg».proof.Defs
import proofs.«161804_j42545946034942_1_alg».proof.Proof.Gen.Kernel
import proofs.«161804_j42545946034942_1_alg».proof.Proof.Gen.Kernel.Skeleton
import proofs.«161804_j42545946034942_1_alg».proof.Proof.Gen.Kernel.Launch
import proofs.«161804_j42545946034942_1_alg».proof.Proof.Gen.Kernel.Points
import proofs.«161804_j42545946034942_1_alg».proof.Proof.Gen.Kernel.Frame
import proofs.«161804_j42545946034942_1_alg».proof.Proof.Gen.KernelIdeal
import proofs.«161804_j42545946034942_1_alg».proof.Proof.Gen.KernelIdeal.Skeleton
import proofs.«161804_j42545946034942_1_alg».proof.Proof.Gen.KernelIdeal.Launch
import proofs.«161804_j42545946034942_1_alg».proof.Proof.Gen.KernelIdeal.Points
import proofs.«161804_j42545946034942_1_alg».proof.Proof.Gen.KernelIdeal.Frame
import proofs.«161804_j42545946034942_1_alg».proof.Proof.Gen.ReferenceIdeal
import proofs.«161804_j42545946034942_1_alg».proof.Proof.Gen.ReferenceIdeal.Run
import proofs.«161804_j42545946034942_1_alg».proof.Proof.Gen.ReferenceIdeal.Read
import proofs.«161804_j42545946034942_1_alg».proof.Proof.Gen.Pre_finite_inputs
import proofs.«161804_j42545946034942_1_alg».proof.Proof.KernelValue
import proofs.«161804_j42545946034942_1_alg».proof.Proof.ReferenceMessages
import Idealize.ShloMosaic.Adequacy
import Idealize.ShloMosaic.Init

noncomputable section

namespace Cert.Proof

open Idealize.ShloMosaic Idealize.SL.Sem

/-- The kernel as printed terminates, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result's equation dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the five arguments, both programs end with the observations plus the encoded
    messages of those arguments, re-laid to `[512, 1024, 128]`. -/
theorem algebraic : Cert.algebraic_KernelIdeal_ReferenceIdeal := by
  intro m ρ m' ρ' _ hagree
  refine ⟨_, Cert.AgentMessage.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v15_eq (F := Ideal) _ _ _ _ _).trans
    (Cert.AgentMessage.Reference.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
